-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16x512 : Shape := ⟨2, ![16, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16x4096x512 .f32) (main_arg1 : FVec F S16x512 .f32) (main_arg2 : FVec F S512x512 .f32) (main_arg3 : FVec F S512 .f32) (main_arg4 : FVec F S512x512 .f32) (main_arg5 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16x4096x512 : Shape := ⟨3, ![16, 4096, 512]⟩
abbrev S16x512 : Shape := ⟨2, ![16, 512]⟩
abbrev S512x512 : Shape := ⟨2, ![512, 512]⟩
abbrev S512 : Shape := ⟨1, ![512]⟩
abbrev S1x512 : Shape := ⟨2, ![1, 512]⟩
abbrev S16x1x512 : Shape := ⟨3, ![16, 1, 512]⟩
abbrev S1x1024x512 : Shape := ⟨3, ![1, 1024, 512]⟩
abbrev S1x1x512 : Shape := ⟨3, ![1, 1, 512]⟩
abbrev S512x1 : Shape := ⟨2, ![512, 1]⟩
abbrev S1024x512 : Shape := ⟨2, ![1024, 512]⟩

abbrev nBuf : Space → Nat
  | .hbm => 13
  | .vmem => 9
  | .smem => 0
  | _ => 0

abbrev bufTy : (tb : Table) → Fin (tcTables nBuf tb) → BufTy
  | .hbm, ⟨0, _⟩ => ⟨S16x4096x512, .f32⟩
  | .hbm, ⟨1, _⟩ => ⟨S16x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S16x512, .f32⟩
  | .hbm, ⟨8, _⟩ => ⟨S1x512, .f32⟩
  | .hbm, ⟨9, _⟩ => ⟨S16x512, .f32⟩
  | .hbm, ⟨10, _⟩ => ⟨S16x512, .f32⟩
  | .hbm, ⟨11, _⟩ => ⟨S16x1x512, .f32⟩
  | .hbm, ⟨12, _⟩ => ⟨S16x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S512x512, .f32⟩
  | .local _ .vmem, ⟨5, _⟩ => ⟨S512, .f32⟩
  | .local _ .vmem, ⟨6, _⟩ => ⟨S1x1024x512, .f32⟩
  | .local _ .vmem, ⟨7, _⟩ => ⟨S1x1024x512, .f32⟩
  | .local _ .vmem, ⟨8, _⟩ => ⟨S512x512, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x1x512_0_2 : S16x512.BroadcastsInDim S16x1x512 (![0, 2] : Fin 2 → Fin S16x1x512.rank)
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S1x1024x512 : S1024x512.ShapeCasts S1x1024x512
  dot_S16x512_S512x512_S16x512_1_0_0_1_n_n_wf : DotDims.WF S16x512 S512x512 S16x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x4096x512.size a
  hwx0_0 : ∀ i : grid0.Coords, EltTy.bits .f32 = 32 ∨ (Rect.block (s := S16x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S16x4096x512.size a
  hwx0_4 : ∀ i : grid0.Coords, EltTy.bits .f32 = 32 ∨ (Rect.block (s := S16x4096x512) S1x1024x512.size (cc0_transform_4 i) (hinb0_4 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S16x512 : Shape := ⟨2, ![16, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S16x1x512 : Shape := ⟨3, ![16, 1, 512]⟩
abbrev S16x512x512 : Shape := ⟨3, ![16, 512, 512]⟩
abbrev S_ : Shape := ⟨0, ![]⟩
abbrev S16x512x1 : Shape := ⟨3, ![16, 512, 1]⟩
abbrev S1x1x512 : Shape := ⟨3, ![1, 1, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S16x512, .f32⟩
  | .hbm, ⟨8, _⟩ => ⟨S1x512, .f32⟩
  | .hbm, ⟨9, _⟩ => ⟨S16x512, .f32⟩
  | .hbm, ⟨10, _⟩ => ⟨S16x512, .f32⟩
  | .hbm, ⟨11, _⟩ => ⟨S1x512x512, .f32⟩
  | .hbm, ⟨12, _⟩ => ⟨S16x1x512, .f32⟩
  | .hbm, ⟨13, _⟩ => ⟨S16x512x512, .f32⟩
  | .hbm, ⟨14, _⟩ => ⟨S16x512x512, .f32⟩
  | .hbm, ⟨15, _⟩ => ⟨S16x512x512, .f32⟩
  | .hbm, ⟨16, _⟩ => ⟨S16x512x512, .f32⟩
  | .hbm, ⟨17, _⟩ => ⟨S_, .f32⟩
  | .hbm, ⟨18, _⟩ => ⟨S16x512, .f32⟩
  | .hbm, ⟨19, _⟩ => ⟨S16x512x1, .f32⟩
  | .hbm, ⟨20, _⟩ => ⟨S_, .f32⟩
  | .hbm, ⟨21, _⟩ => ⟨S16x512x1, .f32⟩
  | .hbm, ⟨22, _⟩ => ⟨S16x512x1, .f32⟩
  | .hbm, ⟨23, _⟩ => ⟨S16x512x1, .f32⟩
  | .hbm, ⟨24, _⟩ => ⟨S16x512x512, .f32⟩
  | .hbm, ⟨25, _⟩ => ⟨S16x512x512, .f32⟩
  | .hbm, ⟨26, _⟩ => ⟨S16x4096x512, .f32⟩
  | .hbm, ⟨27, _⟩ => ⟨S1x1x512, .f32⟩
  | .hbm, ⟨28, _⟩ => ⟨S16x4096x512, .f32⟩
  | .hbm, ⟨29, _⟩ => ⟨S16x4096x512, .f32⟩
  | .hbm, ⟨30, _⟩ => ⟨S_, .f32⟩
  | .hbm, ⟨31, _⟩ => ⟨S16x4096x512, .f32⟩
  | .hbm, ⟨32, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S512x512_S1x512x512_1_2 : S512x512.BroadcastsInDim S1x512x512 (![1, 2] : Fin 2 → Fin S1x512x512.rank)
  bcast_S16x512_S16x1x512_0_2 : S16x512.BroadcastsInDim S16x1x512 (![0, 2] : Fin 2 → Fin S16x1x512.rank)
  bcast_S1x512x512_S16x512x512_0_1_2 : S1x512x512.BroadcastsInDim S16x512x512 (![0, 1, 2] : Fin 3 → Fin S16x512x512.rank)
  bcast_S16x1x512_S16x512x512_0_1_2 : S16x1x512.BroadcastsInDim S16x512x512 (![0, 1, 2] : Fin 3 → Fin S16x512x512.rank)
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x512_0_1_2 : S16x512x1.BroadcastsInDim S16x512x512 (![0, 1, 2] : Fin 3 → Fin S16x512x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  dot_S16x512_S512x512_S16x512_1_0_0_1_n_n_wf : DotDims.WF S16x512 S512x512 S16x512 [1] [0] [0] [1] [] []
  dot_S16x4096x512_S16x512x512_S16x4096x512_2_2_1_1_0_0_wf : DotDims.WF S16x4096x512 S16x512x512 S16x4096x512 [2] [2] [1] [1] [0] [0]

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x4096x512_S16x512x512_S16x4096x512_2_2_1_1_0_0 : DotDims S16x4096x512 S16x512x512 S16x4096x512 where
  lhsContracting := [2]
  rhsContracting := [2]
  lhsNonContracting := [1]
  rhsNonContracting := [1]
  lhsBatch := [0]
  rhsBatch := [0]
  wf := dot_S16x4096x512_S16x512x512_S16x4096x512_2_2_1_1_0_0_wf

class Facts : Prop extends Facts₀ where

variable [Facts]
-- ==== Proof.Pieces.lean ====
/-
  What one run of the kernel body leaves behind, as values of the blocks it loaded.

  The body has two control cases. At the first row tile of a batch it builds the normalised, modulated weight
  from the style row and the weight matrix, stores it whole into the scratch, reads it back, and multiplies the
  activation tile by it; at the other row tiles it stores nothing into the scratch and multiplies the activation
  tile by what the scratch already held. Each lemma below reads the covering store of one case back as the
  store's payload: the output tile is the second payload (product, bias, clamp at zero) of the activation tile,
  the scratch contents and the bias; the scratch after the first case is the first payload (the demodulated
  weight) of the style row and the weight matrix.
-/
import proofs.«122275_j82652350644272_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz1 : (![0] : Fin 1 → Nat) = fun _ => 0 := funext fun a => by fin_cases a; rfl
theorem hz2 : (![0, 0] : Fin 2 → Nat) = fun _ => 0 := funext fun a => by fin_cases a <;> rfl

theorem out_B (c : Dev nD) (i : grid0.Coords) (arg2 : Memref sig .tc .vmem S1x1024x512 .f32) (harg2 : arg2.IsWhole) (arg3 : Memref sig .tc .vmem S1x1x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1x1024x512 .f32) (harg6 : arg6.IsWhole) (arg7 : Memref sig .tc .vmem S512x512 .bf16) (harg7 : arg7.IsWhole) (hc0 : ¬cond0_0 i)
    (x0 : Vec F S1x1024x512 .f32) (x1 : Vec F S1x1x512 .f32) (x2 : Vec F S512x512 .f32) (x3 : Vec F S512 .f32) (xs0 : Vec F S512x512 .bf16) :
    out0_B_4 c i arg2 harg2 arg3 harg3 arg4 harg4 arg5 harg5 arg6 harg6 arg7 harg7 hc0 x0 x1 x2 x3 xs0 = k0_pay2 x0 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg2.read_unread, harg5.read_unread, harg7.read_unread, View.ld_unit_zero (S := S1x1024x512) hz3, View.ld_unit_zero (S := S512x512) hz2, View.ld_unit_zero (S := S512) hz1]

theorem out_A (c : Dev nD) (i : grid0.Coords) (arg2 : Memref sig .tc .vmem S1x1024x512 .f32) (harg2 : arg2.IsWhole) (arg3 : Memref sig .tc .vmem S1x1x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1x1024x512 .f32) (harg6 : arg6.IsWhole) (arg7 : Memref sig .tc .vmem S512x512 .bf16) (harg7 : arg7.IsWhole) (hc0 : cond0_0 i)
    (x0 : Vec F S1x1024x512 .f32) (x1 : Vec F S1x1x512 .f32) (x2 : Vec F S512x512 .f32) (x3 : Vec F S512 .f32) :
    out0_A_4 c i arg2 harg2 arg3 harg3 arg4 harg4 arg5 harg5 arg6 harg6 arg7 harg7 hc0 x0 x1 x2 x3 = k0_pay2 x0 (k0_pay1 x1 x2) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread, View.ld_unit_zero (S := S1x1024x512) hz3, View.ld_unit_zero (S := S512x512) hz2, View.ld_unit_zero (S := S512) hz1, View.ld_unit_zero (S := S1x1x512) hz3, View.readCov_unit_zero (S := S512x512) _ hz2]

theorem sout_A (c : Dev nD) (i : grid0.Coords) (arg2 : Memref sig .tc .vmem S1x1024x512 .f32) (harg2 : arg2.IsWhole) (arg3 : Memref sig .tc .vmem S1x1x512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S1x1024x512 .f32) (harg6 : arg6.IsWhole) (arg7 : Memref sig .tc .vmem S512x512 .bf16) (harg7 : arg7.IsWhole) (hc0 : cond0_0 i)
    (x0 : Vec F S1x1024x512 .f32) (x1 : Vec F S1x1x512 .f32) (x2 : Vec F S512x512 .f32) (x3 : Vec F S512 .f32) :
    sout0_A_0 c i arg2 harg2 arg3 harg3 arg4 harg4 arg5 harg5 arg6 harg6 arg7 harg7 hc0 x0 x1 x2 x3 = k0_pay1 x1 x2 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg3.read_unread, harg4.read_unread, View.ld_unit_zero (S := S512x512) hz2, View.ld_unit_zero (S := S1x1x512) hz3]

end Cert.KernelIdeal.Pieces

end
-- ==== Proof.Payload.lean ====
/-
  The two store payloads of the kernel body read at an index, over the extended reals.

  The first payload is the demodulated weight: the weight matrix scaled column by column by the batch's style row,
  each row then divided by the square root of the small constant plus the row's sum of squares. Reading it at (o, i)
  passes through two broadcasts (the style row over the rows, the row norms over the columns), one lane sum and one
  reciprocal square root; the change of float format before the store is the identity on extended reals.

  The second payload is the output tile: the activation tile times the transposed scratch (both contract their
  second axis, so entry (r, o) sums activation(r, k) · scratch(o, k) over k), plus the bias broadcast over the rows,
  clamped below at zero.
-/
import proofs.«122275_j82652350644272_1_alg».proof.Proof.Gen.KernelIdeal.Value
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.ValueIdx

/-- A column vector made from a vector: entry (o, u) is entry o. -/
theorem cast_col {α : Type} (v : S512.Idx → α) (h : S512.ShapeCasts S512x1) (o : Fin 512) (u : Fin 1) :
    shapeCast S512x1 v h (ix2 o u) = v (ix1 o) :=
  shapeCast_apply v h _ _ (by
    have hu : u.val = 0 := by omega
    rw [Shape.rowMajor_val_one, Shape.rowMajor_val_two]
    show o.val = o.val * 1 + u.val
    omega)

/-- A column broadcast along the rows: entry (o, i) is the column's entry o. -/
theorem bcast_col {α : Type} (v : S512x1.Idx → α) (h : S512x1.Broadcasts S512x512) (o i : Fin 512) :
    broadcastTo S512x512 v h (ix2 o i) = v (ix2 o (0 : Fin 1)) := by
  refine broadcastTo_apply v h (ix2 o i) (ix2 o (0 : Fin 1)) fun ax => ?_
  match ax with
  | ⟨0, _⟩ => show o.val = if (512 : Nat) = 1 then 0 else o.val; rw [if_neg (by decide)]
  | ⟨1, _⟩ => rfl

/-- The sum along a row of a square matrix, at row o. -/
theorem rowsum (src : FVec Ideal S512x512 .f32) (h : S512x512.Reduces [1] S512) (hφ : FKind.Formats .f32)
    (hacc : (0x00000000#32 : BitVec 32) = FKind.add.neutral .f32 hφ) (o : Fin 512) :
    multiReduction .add [1] S512 src 0x00000000#32 h hφ hacc (ix1 o) = ∑ k : Fin 512, src (ix2 o k) := by
  refine (Ideal.multiReduction_add_single src 0x00000000#32 h hφ hacc (ix1 o)).trans ?_
  refine Finset.sum_congr rfl fun k _ => congrArg src ?_
  funext c; apply Fin.ext
  match c with
  | ⟨0, _⟩ => rfl
  | ⟨1, _⟩ => rfl

theorem rsqrt_apply {s : Shape} {φ : FTy} (a : FVec Ideal s φ) (i : s.Idx) : rsqrt a i = Ideal.rsqrt (a i) := rfl

/-- The demodulated weight at (o, i): the modulated entry weight(o, i) · style(i) times the reciprocal square root of
    the small constant plus the sum of the squares of row o's modulated entries. -/
theorem pay1_apply (x1 : Vec Ideal S1x1x512 .f32) (x2 : Vec Ideal S512x512 .f32) (o i : Fin 512) :
    k0_pay1 (F := Ideal) x1 x2 (ix2 o i)
      = (x2 (ix2 o i) * x1 (ix3 (0 : Fin 1) (0 : Fin 1) i))
        * Ideal.rsqrt (Ideal.ofBits .f32 0x322BCC77#32
            + ∑ k : Fin 512, (x2 (ix2 o k) * x1 (ix3 (0 : Fin 1) (0 : Fin 1) k)) * (x2 (ix2 o k) * x1 (ix3 (0 : Fin 1) (0 : Fin 1) k))) := by
  unfold k0_pay1
  simp only [shapeCast_self, truncf_apply, mulf_apply, bcast_col, rsqrt_apply, addf_apply, broadcast_apply, cast_col, rowsum,
    broadcastTo_1b_ab_apply, shapeCast_1ab_ab_apply]
  refine congrArg (fun z => x2 (ix2 o i) * x1 (ix3 (0 : Fin 1) (0 : Fin 1) i) * Ideal.rsqrt (Ideal.ofBits .f32 0x322BCC77#32 + z)) ?_
  refine (rowsum _ _ _ _ o).trans ?_
  refine Finset.sum_congr rfl fun k _ => ?_
  simp only [mulf_apply, broadcastTo_1b_ab_apply, shapeCast_1ab_ab_apply]

/-! The product of the activation tile with the transposed weight: both operands contract their second axis. -/

theorem lhs_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- Entry (p, o) of the product into a zero accumulator: the sum over k of l(p, k) · r(o, k). -/
theorem matmul_at (l : FVec Ideal S1024x512 .bf16) (r : FVec Ideal S512x512 .bf16) (p : Fin 1024) (o : Fin 512) :
    matmul dot_S1024x512_S512x512_S1024x512_1_1_0_0_n_n none l r (constant S1024x512 .f32 0x00000000#32) (ix2 p o)
      = ∑ k : Fin 512, l (ix2 p k) * r (ix2 o k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 p o) ((ValueIdx.contrEquiv1 dot_S1024x512_S512x512_S1024x512_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S512x512_S1024x512_1_1_0_0_n_n.rhsIdx (ix2 p o) ((ValueIdx.contrEquiv1 dot_S1024x512_S512x512_S1024x512_1_1_0_0_n_n 512 rfl rfl).symm k) = ix2 o k := funext fun a => Fin.ext (by
    match a with
    | ⟨0, _⟩ => exact rhs_0 _ _
    | ⟨1, _⟩ => exact (rhs_1 _ _).trans hk)
  rw [el, er]

/-- The output tile at (u, r, o): the clamp at zero of the bias at o plus the sum over k of the activation at (r, k)
    times the scratch at (o, k). -/
theorem pay2_apply (x0 : Vec Ideal S1x1024x512 .f32) (wd : Vec Ideal S512x512 .bf16) (x3 : Vec Ideal S512 .f32)
    (u : Fin 1) (r : Fin 1024) (o : Fin 512) :
    k0_pay2 (F := Ideal) x0 wd x3 (ix3 u r o)
      = max ((∑ k : Fin 512, x0 (ix3 (0 : Fin 1) r k) * wd (ix2 o k)) + x3 (ix1 o)) (Ideal.ofBits .f32 0x00000000#32) := by
  unfold k0_pay2
  simp only [shapeCast_ab_1ab_apply, maximumf_apply, addf_apply, broadcast_apply, broadcastTo_1b_ab_apply, shapeCast_a_1a_apply,
    matmul_at, truncf_apply, shapeCast_1ab_ab_apply]
  rfl

end Cert.KernelIdeal.Payload

end
-- ==== Proof.Spec.lean ====
/-
  The function both programs compute, entry by entry over the extended reals.

  For a batch b the style row s(b, ·) scales the columns of the weight matrix W, giving the modulated weight
  W(o, i) · s(b, i); each of its rows is divided by the square root of ε plus the row's sum of squares (ε the
  single-precision constant nearest 1e-8, kept as its bit pattern: both programs carry the same word). The output
  at (b, n, o) is the bias at o plus the sum over i of x(b, n, i) times the demodulated weight at (b, o, i),
  clamped below at zero.
-/
import Idealize.ShloMosaic.PureOps.Ideal
import Idealize.ShloMosaic.Lib.ValueIdx

noncomputable section

namespace ModulatedLinear

open Idealize.ShloMosaic Idealize.ShloMosaic.ValueIdx

/-- The demodulated weight of batch `b` at row `o`, column `i`. -/
def demod (s : (⟨3, ![16, 1, 512]⟩ : Shape).Idx → EReal) (W : (⟨2, ![512, 512]⟩ : Shape).Idx → EReal)
    (b : Fin 16) (o i : Fin 512) : EReal :=
  (W (ix2 o i) * s (ix3 b (0 : Fin 1) i))
    * Ideal.rsqrt (Ideal.ofBits .f32 0x322BCC77#32
        + ∑ k : Fin 512, (W (ix2 o k) * s (ix3 b (0 : Fin 1) k)) * (W (ix2 o k) * s (ix3 b (0 : Fin 1) k)))

/-- The output at batch `b`, row `n`, channel `o`. -/
def outAt (x : (⟨3, ![16, 4096, 512]⟩ : Shape).Idx → EReal) (s : (⟨3, ![16, 1, 512]⟩ : Shape).Idx → EReal)
    (W : (⟨2, ![512, 512]⟩ : Shape).Idx → EReal) (β : (⟨1, ![512]⟩ : Shape).Idx → EReal)
    (b : Fin 16) (n : Fin 4096) (o : Fin 512) : EReal :=
  max ((∑ k : Fin 512, x (ix3 b n k) * demod s W b o k) + β (ix1 o)) (Ideal.ofBits .f32 0x00000000#32)

/-- The whole output array. -/
def out (x : (⟨3, ![16, 4096, 512]⟩ : Shape).Idx → EReal) (s : (⟨3, ![16, 1, 512]⟩ : Shape).Idx → EReal)
    (W : (⟨2, ![512, 512]⟩ : Shape).Idx → EReal) (β : (⟨1, ![512]⟩ : Shape).Idx → EReal) :
    (⟨3, ![16, 4096, 512]⟩ : Shape).Idx → EReal :=
  fun j => outAt x s W β (j 0) (j 1) (j 2)

theorem out_ix3 (x : (⟨3, ![16, 4096, 512]⟩ : Shape).Idx → EReal) (s : (⟨3, ![16, 1, 512]⟩ : Shape).Idx → EReal)
    (W : (⟨2, ![512, 512]⟩ : Shape).Idx → EReal) (β : (⟨1, ![512]⟩ : Shape).Idx → EReal)
    (b : Fin 16) (n : Fin 4096) (o : Fin 512) : out x s W β (ix3 b n o) = outAt x s W β b n o := rfl

end ModulatedLinear

end
-- ==== Proof.Whole.lean ====
/-
  The kernel's output array after the whole grid, as one function of the arrays the region finds.

  The grid has 16 batches of 4 row tiles, visited batch by batch; point t is row tile t mod 4 of batch t div 4.
  Each window's block at a point is its array read through a rectangle (the activations' and the output's block
  (t div 4, t mod 4) of 1 × 1024 × 512, the style row of batch t div 4, the weight and the bias whole), so a block's
  entry is the array's entry at the shifted index.

  The scratch is carried from point to point: the first row tile of a batch stores the batch's demodulated weight
  into it and the three other tiles leave it as it was, so after every point of batch b it holds that batch's
  demodulated weight (induction on the point; the step at a later tile only uses that the point before lies in the same
  batch). Hence every point's output tile is the specification's output read through the point's block, the 64 blocks
  cover the output array (row n of batch b lies in the block of point 4 b + n div 1024), and the array after the run is
  the specification's output.
-/
import proofs.«122275_j82652350644272_1_alg».proof.Proof.Gen.KernelIdeal.Value
import proofs.«122275_j82652350644272_1_alg».proof.Proof.Pieces
import proofs.«122275_j82652350644272_1_alg».proof.Proof.Payload
import proofs.«122275_j82652350644272_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx ModulatedLinear
open Cert.KernelIdeal.Pieces Cert.KernelIdeal.Payload

variable (m : (ℓ : Loc nD τ sig) → Buf (Elt Ideal) ℓ) (ρ : Dev nD → PrngReg)

theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 4 ∧ win0_4.index t (1 : Fin 3) = t.val % 4 ∧ win0_4.index t (2 : Fin 3) = 0 :=
  (by decide +kernel : ∀ t : Fin grid0.N, _)

abbrev xArr (c : Dev nD) : S16x4096x512.Idx → EReal := V m c main_arg0
abbrev sArr (c : Dev nD) : S16x1x512.Idx → EReal := V m c main_v5
abbrev wArr (c : Dev nD) : S512x512.Idx → EReal := V m c main_arg2
abbrev bArr (c : Dev nD) : S512.Idx → EReal := V m c main_arg3
abbrev xblk (c : Dev nD) (t : Fin cfg0.N) : Vec Ideal S1x1024x512 .f32 := iblk m c 0 t
abbrev sblk (c : Dev nD) (t : Fin cfg0.N) : Vec Ideal S1x1x512 .f32 := iblk m c 1 t
abbrev wblk (c : Dev nD) (t : Fin cfg0.N) : Vec Ideal S512x512 .f32 := iblk m c 2 t
abbrev bblk (c : Dev nD) (t : Fin cfg0.N) : Vec Ideal S512 .f32 := iblk m c 3 t

theorem xblk_apply (c : Dev nD) (t : Fin cfg0.N) (b : Fin 16) (hb : b.val = t.val / 4) (n : Fin 4096) (u : Fin 1) (r : Fin 1024)
    (hn : n.val = t.val % 4 * 1024 + r.val) (k : Fin 512) :
    xblk m c t (ix3 u r k) = xArr m c (ix3 b n k) := by
  obtain ⟨e0, e1, e2, -⟩ := idx_facts t
  show V m c main_arg0 (((cfg0.win 0).blk t).view.emb (ix3 u r k)) = V m c main_arg0 (ix3 b n k)
  refine congrArg _ (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 1024 + 1 * r.val = n.val; omega
  | ⟨2, _⟩ => show win0_0.index t (2 : Fin 3) * 512 + 1 * k.val = k.val; omega

theorem sblk_apply (c : Dev nD) (t : Fin cfg0.N) (b : Fin 16) (hb : b.val = t.val / 4) (u v : Fin 1) (k : Fin 512) :
    sblk m c t (ix3 u v k) = sArr m c (ix3 b (0 : Fin 1) k) := by
  obtain ⟨-, -, -, e0, e1, e2, -⟩ := idx_facts t
  show V m c main_v5 (((cfg0.win 1).blk t).view.emb (ix3 u v k)) = V m c main_v5 (ix3 b (0 : Fin 1) k)
  refine congrArg _ (funext fun a => Fin.ext ?_)
  have hu : u.val = 0 := by omega
  have hv : v.val = 0 := by omega
  match a with
  | ⟨0, _⟩ => show win0_1.index t (0 : Fin 3) * 1 + 1 * u.val = b.val; omega
  | ⟨1, _⟩ => show win0_1.index t (1 : Fin 3) * 1 + 1 * v.val = 0; omega
  | ⟨2, _⟩ => show win0_1.index t (2 : Fin 3) * 512 + 1 * k.val = k.val; omega

theorem wblk_apply (c : Dev nD) (t : Fin cfg0.N) (o k : Fin 512) :
    wblk m c t (ix2 o k) = wArr m c (ix2 o k) := by
  obtain ⟨-, -, -, -, -, -, e0, e1, -⟩ := idx_facts t
  show V m c main_arg2 (((cfg0.win 2).blk t).view.emb (ix2 o k)) = V m c main_arg2 (ix2 o k)
  refine congrArg _ (funext fun a => Fin.ext ?_)
  match a with
  | ⟨0, _⟩ => show win0_2.index t (0 : Fin 2) * 512 + 1 * o.val = o.val; omega
  | ⟨1, _⟩ => show win0_2.index t (1 : Fin 2) * 512 + 1 * k.val = k.val; omega

theorem bblk_apply (c : Dev nD) (t : Fin cfg0.N) (o : Fin 512) :
    bblk m c t (ix1 o) = bArr m c (ix1 o) := by
  obtain ⟨-, -, -, -, -, -, -, -, e0, -⟩ := idx_facts t
  show V m c main_arg3 (((cfg0.win 3).blk t).view.emb (ix1 o)) = V m c main_arg3 (ix1 o)
  refine congrArg _ (funext fun a => Fin.ext ?_)
  match a with
  | ⟨0, _⟩ => show win0_3.index t (0 : Fin 1) * 512 + 1 * o.val = o.val; omega

/-- The demodulated weight computed from the blocks staged at point `t` is the batch's. -/
theorem pay1_blocks (c : Dev nD) (t : Fin cfg0.N) (b : Fin 16) (hb : b.val = t.val / 4) (o i : Fin 512) :
    k0_pay1 (F := Ideal) (sblk m c t) (wblk m c t) (ix2 o i) = demod (sArr m c) (wArr m c) b o i := by
  refine (pay1_apply (sblk m c t) (wblk m c t) o i).trans ?_
  unfold demod
  rw [sblk_apply m c t b hb, wblk_apply m c t]
  refine congrArg (fun z => wArr m c (ix2 o i) * sArr m c (ix3 b (0 : Fin 1) i) * Ideal.rsqrt (Ideal.ofBits .f32 0x322BCC77#32 + z)) ?_
  refine Finset.sum_congr rfl fun k _ => ?_
  rw [sblk_apply m c t b hb, wblk_apply m c t]

/-- What the scratch holds after point `n`: the demodulated weight of the batch the point belongs to. -/
theorem carried (c : Dev nD) : ∀ (n : ℕ) (hn : n < cfg0.N) (b : Fin 16), b.val = n / 4 → ∀ o i : Fin 512,
    (outsAt0 m c n hn).2 (ix2 o i) = demod (sArr m c) (wArr m c) b o i := by
  intro n
  induction n with
  | zero =>
    intro hn b hb o i
    rw [outsAt0_A m c ⟨0, hn⟩ rfl]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)) (ix2 o i)).trans ?_
    exact pay1_blocks m c ⟨0, hn⟩ b hb o i
  | succ n ih =>
    intro hn b hb o i
    by_cases h0 : (n + 1) % 4 = 0
    · rw [outsAt0_A m c ⟨n + 1, hn⟩ h0]
      dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)) (ix2 o i)).trans ?_
      exact pay1_blocks m c ⟨n + 1, hn⟩ b hb o i
    · rw [outsAt0_B m c ⟨n + 1, hn⟩ h0]
      dsimp only
      unfold sout0_B_0
      exact ih (Nat.lt_of_succ_lt hn) b (by omega) o i

/-- The output tile after point `t`, entry by entry. -/
theorem tile (c : Dev nD) (t : Fin cfg0.N) (b : Fin 16) (hb : b.val = t.val / 4) (u : Fin 1) (r : Fin 1024) (n : Fin 4096)
    (hn : n.val = t.val % 4 * 1024 + r.val) (o : Fin 512) :
    (outsAt0 m c t.val t.isLt).1 (ix3 u r o) = outAt (xArr m c) (sArr m c) (wArr m c) (bArr m c) b n o := by
  have hN : t.val < 64 := lt_of_lt_of_eq t.isLt (show cfg0.N = 64 from N_0)
  by_cases h0 : t.val % 4 = 0
  · rw [outsAt0_A m c t h0]
    dsimp only
    refine (congrFun (out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix3 u r o)).trans ?_
    refine (pay2_apply (xblk m c t) (k0_pay1 (sblk m c t) (wblk m c t)) (bblk m c t) u r o).trans ?_
    unfold outAt
    rw [bblk_apply m c t o]
    refine congrArg (fun z => max (z + bArr m c (ix1 o)) (Ideal.ofBits .f32 0x00000000#32)) ?_
    refine Finset.sum_congr rfl fun k _ => ?_
    rw [xblk_apply m c t b hb n (0 : Fin 1) r hn k, pay1_blocks m c t b hb o k]
  · rw [outsAt0_B m c t h0]
    dsimp only
    refine (congrFun (out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) (ix3 u r o)).trans ?_
    refine (pay2_apply (xblk m c t) (outsAt0 m c (t.val - 1) (Nat.lt_of_le_of_lt (Nat.sub_le _ _) t.isLt)).2 (bblk m c t) u r o).trans ?_
    unfold outAt
    rw [bblk_apply m c t o]
    refine congrArg (fun z => max (z + bArr m c (ix1 o)) (Ideal.ofBits .f32 0x00000000#32)) ?_
    refine Finset.sum_congr rfl fun k _ => ?_
    rw [xblk_apply m c t b hb n (0 : Fin 1) r hn k, carried m c (t.val - 1) _ b (by omega) o k]

/-- What point `t` writes back is block `t` of the specification's output array. -/
theorem flushed_eq (c : Dev nD) (t : Fin cfg0.N) :
    (dats m 0 c).flushed 4 t
      = ((cfg0.win 4).blk t).view.read (Elt Ideal) (out (xArr m c) (sArr m c) (wArr m c) (bArr m c)) := by
  have hN : t.val < 64 := lt_of_lt_of_eq t.isLt (show cfg0.N = 64 from N_0)
  obtain ⟨-, -, -, -, -, -, -, -, -, e0, e1, e2⟩ := idx_facts t
  rw [Cert.KernelIdeal.Value.flushed4]
  funext j
  obtain ⟨u, r, o, rfl⟩ : ∃ (u : Fin 1) (r : Fin 1024) (o : Fin 512), j = ix3 u r o := ⟨j 0, j 1, j 2, eq_ix3 j⟩
  have hu : u.val = 0 := by omega
  have hemb : ((cfg0.win 4).blk t).view.emb (ix3 u r o)
      = ix3 (⟨t.val / 4, by omega⟩ : Fin 16) (⟨t.val % 4 * 1024 + r.val, by have := r.isLt; omega⟩ : Fin 4096) o := by
    funext a; apply Fin.ext
    match a with
    | ⟨0, _⟩ => show win0_4.index t (0 : Fin 3) * 1 + 1 * u.val = t.val / 4; omega
    | ⟨1, _⟩ => show win0_4.index t (1 : Fin 3) * 1024 + 1 * r.val = t.val % 4 * 1024 + r.val; omega
    | ⟨2, _⟩ => show win0_4.index t (2 : Fin 3) * 512 + 1 * o.val = o.val; omega
  show (outsAt0 m c t.val t.isLt).1 (ix3 u r o) = out (xArr m c) (sArr m c) (wArr m c) (bArr m c) (((cfg0.win 4).blk t).view.emb (ix3 u r o))
  rw [hemb, out_ix3]
  exact tile m c t _ rfl u r _ rfl o

/-- An index of the output array lies in point `t`'s block iff each coordinate lies in the block's range on its axis. -/
theorem mem_blk (t : Fin cfg0.N) (i : S16x4096x512.Idx) :
    i ∈ ((cfg0.win 4).blk t).view.set ↔ ∀ a : Fin 3, win0_4.index t a * S1x1024x512.size a ≤ (i a).val ∧ (i a).val < win0_4.index t a * S1x1024x512.size a + S1x1024x512.size a := by
  show i ∈ ((View.whole main_v6).slice (win0_4.rect t)).set ↔ _
  rw [View.set_slice_whole, Rect.mem_set_unit]
  exact Iff.rfl

/-- The output array after the run is the specification's, of the arrays as the region finds them. -/
theorem final (c : Dev nD) :
    (dats m 0 c).arrAt 4 cfg0.N = out (xArr m c) (sArr m c) (wArr m c) (bArr m c) :=
  (dats m 0 c).arrAt_eq_of_cover 4 _ (fun t _ => flushed_eq m c t) fun i => by
    have h0 : (i 0).val < 16 := (i 0).isLt
    have h1 : (i 1).val < 4096 := (i 1).isLt
    have h2 : (i 2).val < 512 := (i 2).isLt
    refine ⟨⟨(i 0).val * 4 + (i 1).val / 1024, by rw [show cfg0.N = 64 from N_0]; omega⟩, flush0_4 _, ?_⟩
    rw [mem_blk]
    obtain ⟨-, -, -, -, -, -, -, -, -, e0, e1, e2⟩ := idx_facts ⟨(i 0).val * 4 + (i 1).val / 1024, by rw [show cfg0.N = 64 from N_0]; omega⟩
    dsimp only at e0 e1 e2
    intro a
    match a with
    | ⟨0, _⟩ =>
      show win0_4.index _ (0 : Fin 3) * 1 ≤ (i 0).val ∧ (i 0).val < win0_4.index _ (0 : Fin 3) * 1 + 1
      omega
    | ⟨1, _⟩ =>
      show win0_4.index _ (1 : Fin 3) * 1024 ≤ (i 1).val ∧ (i 1).val < win0_4.index _ (1 : Fin 3) * 1024 + 1024
      omega
    | ⟨2, _⟩ =>
      show win0_4.index _ (2 : Fin 3) * 512 ≤ (i 2).val ∧ (i 2).val < win0_4.index _ (2 : Fin 3) * 512 + 512
      omega

/-- The run with the output array at the specification of the arguments. -/
theorem run : θ_run defs (onTc (τ := τ) (main (F := Ideal))) ⟨m, fun _ => 0, ρ⟩ fun r => ∀ c : Dev nD,
      r.2.mem ((c : Thread nD τ).loc main_v6) = out (m ((c.tc : Thread nD τ).loc main_arg0)) (sArr m c) (m ((c.tc : Thread nD τ).loc main_arg2)) (m ((c.tc : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨by
      rw [(h c).1, final m c]
      show out (V m c main_arg0) (sArr m c) (V m c main_arg2) (V m c main_arg3) = _
      rw [V_main_arg0, V_main_arg2, V_main_arg3], (h c).2⟩)
    (Cert.KernelIdeal.Value.run_blocks m ρ)

end Cert.KernelIdeal.Whole

end
-- ==== Proof.RefValue.lean ====
/-
  The reference's result, read one operation at a time at an index, is the specification's output.

  The reference broadcasts the weight over the batches and the style rows over the output channels, multiplies them
  (the modulated weight), sums its squares along the input channels, adds ε, takes the reciprocal square root,
  multiplies back, contracts the activations with the result over the input channels batch by batch, adds the bias and
  clamps at zero. Read at (b, n, o) every broadcast is a change of index, the host's sum is its zero initial value plus
  the sum over the reduced coordinate, and the contraction is the sum over k of x(b, n, k) times the demodulated weight
  at (b, o, k): term for term the specification, the style rows being the reference's own earlier stage.
-/
import proofs.«122275_j82652350644272_1_alg».proof.Proof.Gen.ReferenceIdeal.Read
import proofs.«122275_j82652350644272_1_alg».proof.Proof.Spec
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx ModulatedLinear

/-- The reference's modulated weight at (b, o, k): the weight at (o, k) times the style at (b, k). -/
theorem modulated_apply (x1 : (⟨S16x512, .f32⟩ : BufTy).Contents (Elt Ideal)) (x2 x4 : (⟨S512x512, .f32⟩ : BufTy).Contents (Elt Ideal))
    (x5 : (⟨S512, .f32⟩ : BufTy).Contents (Elt Ideal)) (b : Fin 16) (o k : Fin 512) :
    val_main_v9 (F := Ideal) x1 x2 x4 x5 (ix3 b o k) = x2 (ix2 o k) * val_main_v6 (F := Ideal) x1 x4 x5 (ix3 b (0 : Fin 1) k) := by
  have e7 : idx_main_v5 (idx_main_v7 (ix3 b o k)) = ix2 o k :=
    funext fun a => Fin.ext (by match a with | ⟨0, _⟩ => rfl | ⟨1, _⟩ => rfl)
  have e8 : idx_main_v8 (ix3 b o k) = ix3 b (0 : Fin 1) k :=
    funext fun a => Fin.ext (by match a with | ⟨0, _⟩ => rfl | ⟨1, _⟩ => rfl | ⟨2, _⟩ => rfl)
  rw [val_main_v9_apply, val_main_v7_apply, val_main_v5_apply, val_main_v8_apply, e7, e8]
  rfl

/-- The reference's demodulated weight at (b, o, k) is the specification's. -/
theorem demod_apply (x1 : (⟨S16x512, .f32⟩ : BufTy).Contents (Elt Ideal)) (x2 x4 : (⟨S512x512, .f32⟩ : BufTy).Contents (Elt Ideal))
    (x5 : (⟨S512, .f32⟩ : BufTy).Contents (Elt Ideal)) (b : Fin 16) (o k : Fin 512) :
    val_main_v17 (F := Ideal) x1 x2 x4 x5 (ix3 b o k) = demod (val_main_v6 (F := Ideal) x1 x4 x5) x2 b o k := by
  have e16 : idx_main_v12 (idx_main_v16 (ix3 b o k)) = ix2 b o :=
    funext fun a => Fin.ext (by match a with | ⟨0, _⟩ => rfl | ⟨1, _⟩ => rfl)
  have e11 : ∀ k' : Fin 512, idx_main_v11 (ix2 b o) k' = ix3 b o k' := fun k' =>
    funext fun a => Fin.ext (by match a with | ⟨0, _⟩ => rfl | ⟨1, _⟩ => rfl | ⟨2, _⟩ => rfl)
  rw [val_main_v17_apply, val_main_v16_apply, val_main_v15_apply, val_main_v14_apply, val_main_v13_apply, val_main_cst_0_apply,
    val_main_v12_apply, e16, val_main_v11_apply, val_main_cst_apply, modulated_apply]
  unfold demod
  simp only [e11, val_main_v10_apply, modulated_apply, Ideal.mulf_def, Ideal.addf_def, Ideal.hostUnary_rsqrt_def, Ideal.ofBits_def,
    Ideal.ofBits_zero_f32, zero_add]

/-- The reference's result is the specification of its arguments, the style row being the reference's own stage. -/
theorem result_eq (x0 : (⟨S16x4096x512, .f32⟩ : BufTy).Contents (Elt Ideal)) (x1 : (⟨S16x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v22 (F := Ideal) x0 x1 x2 x3 x4 x5 = out x0 (val_main_v6 (F := Ideal) x1 x4 x5) x2 x3 := by
  funext j
  obtain ⟨b, n, o, rfl⟩ : ∃ (b : Fin 16) (n : Fin 4096) (o : Fin 512), j = ix3 b n o := ⟨j 0, j 1, j 2, eq_ix3 j⟩
  have el : ∀ k : Fin 512, lidx_main_v18 (ix3 b n o) k = ix3 b n k := fun k =>
    funext fun a => Fin.ext (by match a with | ⟨0, _⟩ => rfl | ⟨1, _⟩ => rfl | ⟨2, _⟩ => rfl)
  have er : ∀ k : Fin 512, ridx_main_v18 (ix3 b n o) k = ix3 b o k := fun k =>
    funext fun a => Fin.ext (by match a with | ⟨0, _⟩ => rfl | ⟨1, _⟩ => rfl | ⟨2, _⟩ => rfl)
  have e20 : idx_main_v19 (idx_main_v20 (ix3 b n o)) = ix1 o :=
    funext fun a => Fin.ext (by match a with | ⟨0, _⟩ => rfl)
  rw [out_ix3, val_main_v22_apply, val_main_v21_apply, val_main_v18_apply, val_main_v20_apply, val_main_v19_apply, e20,
    val_main_call0_v0_apply, val_main_call0_cst_apply]
  unfold outAt
  simp only [el, er, demod_apply, Ideal.maximumf_def, Ideal.addf_def, Ideal.ofBits_def]

end Cert.ReferenceIdeal.RefValue

end
-- ==== Proof.lean ====
/-
  A dense layer whose weight is modulated per batch: the weight matrix is scaled column by column by a style row
  (an affine image of the batch's style vector, computed by the same host operations in both programs), each row of the
  result is normalised by the reciprocal square root of ε plus its sum of squares, and the activations are multiplied by
  the transpose of that matrix, the bias added, and the result clamped at zero.

  The kernel walks a 16 × 4 grid (batch, row tile of 1024 rows). At the first row tile of a batch it builds the
  normalised weight and keeps it in a scratch buffer; the three other tiles of the batch reuse the scratch. The
  reference does the same arithmetic on whole arrays with broadcasts and one batched contraction. Over the extended
  reals the two are the same expression entry by entry — same factors in the same order, the same ε word, a sum over
  the same 512 input channels — so no algebraic law beyond re-indexing is needed and the finiteness of the inputs is
  never used; the changes of float format around the kernel's matrix product are the identity there.

  Frames: the kernel's two are the generated frame runs; the reference's is its generated run with the result dropped.
  The idealization rewrote nothing, so its conjunct is trivial. The value claim puts the kernel's run, with the output
  array named as the specification's output of the arguments (Proof/Whole.lean), beside the reference's run read at an
  index (Proof/RefValue.lean); the style rows the region finds are the reference's style stage of the same arguments.
-/
import proofs.«122275_j82652350644272_1_alg».proof.Defs
import proofs.«122275_j82652350644272_1_alg».proof.Proof.Gen.Kernel
import proofs.«122275_j82652350644272_1_alg».proof.Proof.Gen.Kernel.Skeleton
import proofs.«122275_j82652350644272_1_alg».proof.Proof.Gen.Kernel.Launch
import proofs.«122275_j82652350644272_1_alg».proof.Proof.Gen.Kernel.Points
import proofs.«122275_j82652350644272_1_alg».proof.Proof.Gen.Kernel.Frame
import proofs.«122275_j82652350644272_1_alg».proof.Proof.Gen.KernelIdeal
import proofs.«122275_j82652350644272_1_alg».proof.Proof.Gen.KernelIdeal.Skeleton
import proofs.«122275_j82652350644272_1_alg».proof.Proof.Gen.KernelIdeal.Launch
import proofs.«122275_j82652350644272_1_alg».proof.Proof.Gen.KernelIdeal.Points
import proofs.«122275_j82652350644272_1_alg».proof.Proof.Gen.KernelIdeal.Frame
import proofs.«122275_j82652350644272_1_alg».proof.Proof.Gen.ReferenceIdeal
import proofs.«122275_j82652350644272_1_alg».proof.Proof.Gen.Pre_finite_inputs
import proofs.«122275_j82652350644272_1_alg».proof.Proof.Gen.KernelIdeal.Value
import proofs.«122275_j82652350644272_1_alg».proof.Proof.Gen.ReferenceIdeal.Run
import proofs.«122275_j82652350644272_1_alg».proof.Proof.Gen.ReferenceIdeal.Read
import proofs.«122275_j82652350644272_1_alg».proof.Proof.Whole
import proofs.«122275_j82652350644272_1_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-- The style rows the kernel's region finds are the reference's style stage of the same three arguments: both are the
    product of the style vectors with the transposed projection matrix plus the projection bias, given a unit middle axis. -/
theorem style_eq (m : (ℓ : Loc Cert.KernelIdeal.nD Cert.KernelIdeal.τ Cert.KernelIdeal.sig) → Buf (Elt Ideal) ℓ) (c : Dev Cert.KernelIdeal.nD) :
    Cert.KernelIdeal.Whole.sArr m c
      = Cert.ReferenceIdeal.Read.val_main_v6 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  show (Cert.KernelIdeal.Gen.V m c Cert.KernelIdeal.main_v5 : Cert.KernelIdeal.S16x1x512.Idx → EReal) = _
  dsimp only [Cert.KernelIdeal.Gen.V, Cert.KernelIdeal.Gen.hostOps0]
  after_results
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification's output of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2.1, (hagree c).2.2.2.1, (hagree c).2.2.2.2.1, (hagree c).2.2.2.2.2, style_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
